-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 76
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x64, .f32⟩
  | .hbm, ⟨91, _⟩ => ⟨S1700000x1, .f32⟩
  | .hbm, ⟨92, _⟩ => ⟨S1700000x64, .f32⟩
  | .hbm, ⟨93, _⟩ => ⟨S1700000x64, .f32⟩
  | .hbm, ⟨94, _⟩ => ⟨S_, .f32⟩
  | .hbm, ⟨95, _⟩ => ⟨S100000x64, .f32⟩
  | .hbm, ⟨96, _⟩ => ⟨S1700000x1, .i32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x64, .f32⟩
  | .hbm, ⟨115, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v77 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.HostChains.lean ====
import proofs.«128818_j360777253171_1_alg».proof.Proof.Gen.KernelIdeal.Frame
import Idealize.ShloMosaic.Lib.StableHlo.Run
import Idealize.ShloMosaic.PureOps.Ideal

set_option maxRecDepth 16384

noncomputable section

namespace Cert.HostChains

open Idealize.ShloMosaic Idealize.ShloMosaic.TcCoe Idealize.SL.Sem Idealize.ShloMosaic.StableHlo
open Cert.KernelIdeal Cert.KernelIdeal.Gen

/-! ## The host operations both programs share, as functions of the arrays they read -/

abbrev Nodes := (⟨S1700000, .i32⟩ : BufTy).Contents (Elt Ideal)
abbrev Weights := FVec Ideal S1700000 .f32

/-- The edges' endpoints on row `r` of the edge list (0: sources, 1: destinations), followed by one self loop per node. -/
def endpoints (r : Fin 2 → Nat) (hr : S2x1600000.Slices r S1x1600000) (e : (⟨S2x1600000, .i32⟩ : BufTy).Contents (Elt Ideal)) : Nodes :=
  concatenate S1700000 0 [⟨S1600000, shapeCast S1600000 (extractStridedSlice S1x1600000 r e hr) shapeCasts_S1x1600000_S1600000⟩,
    ⟨S100000, iotaInDim S100000 32 0⟩] concatenates_S1600000_S100000_S1700000_d0

/-- jnp's index wrap: a negative node index counts from the end. -/
def wrapped (s : Nodes) : Nodes :=
  select (cmpi .slt s (broadcastInDim S1700000 ![] bcast_S_S1700000 (constantI S_ 32 0#32)))
    (addi s (broadcastInDim S1700000 ![] bcast_S_S1700000 (constantI S_ 32 100000#32))) s

/-- deg^(-1/2): each node's degree counts the edges that end at it (self loops included). -/
def degInvSqrt (dst : Nodes) : FVec Ideal S100000 .f32 :=
  Host.rsqrt (F := Ideal) (Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32)))

/-- The weight of an edge: deg^(-1/2) at its source times deg^(-1/2) at its destination. -/
def edgeWeight (src dst : Nodes) : Weights :=
  mulf (F := Ideal) (φ := .f32) (Host.gather gather_S100000_S1700000x1_S1700000_n_0_n_n_0_1_1 (degInvSqrt dst)
      (broadcastInDim S1700000x1 ![0] bcast_S1700000_S1700000x1_0 (wrapped src)))
    (Host.gather gather_S100000_S1700000x1_S1700000_n_0_n_n_0_1_1 (degInvSqrt dst)
      (broadcastInDim S1700000x1 ![0] bcast_S1700000_S1700000x1_0 (wrapped dst)))

/-- One aggregation over the edges, 128 features wide: gather the source rows, scale by the edge weight, add into the destination rows. -/
def aggregate128 (h : FVec Ideal S100000x128 .f32) (src dst : Nodes) (w : Weights) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (F := Ideal) (φ := .f32) (Host.gather gather_S100000x128_S1700000x1_S1700000x128_1_0_n_n_0_1_1128 h
        (broadcastInDim S1700000x1 ![0] bcast_S1700000_S1700000x1_0 (wrapped src)))
      (broadcastInDim S1700000x128 ![0, 1] bcast_S1700000x1_S1700000x128_0_1
        (broadcastInDim S1700000x1 ![0] bcast_S1700000_S1700000x1_0 w)))

/-- The same aggregation, 64 features wide. -/
def aggregate64 (h : FVec Ideal S100000x64 .f32) (src dst : Nodes) (w : Weights) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (F := Ideal) (φ := .f32) (Host.gather gather_S100000x64_S1700000x1_S1700000x64_1_0_n_n_0_1_164 h
        (broadcastInDim S1700000x1 ![0] bcast_S1700000_S1700000x1_0 (wrapped src)))
      (broadcastInDim S1700000x64 ![0, 1] bcast_S1700000x1_S1700000x64_0_1
        (broadcastInDim S1700000x1 ![0] bcast_S1700000_S1700000x1_0 w)))

/-! ## What each stretch of host operations leaves, from any contents `X` it starts at -/

variable (X : Valuation τ sig (Elt Ideal))

/-! ### Before the first region -/

set_option maxHeartbeats 4000000 in
theorem sources_after0 : after (hostOps0 (F := Ideal)) X (Proc.devRef .tc main_v3)
    = endpoints ![0, 0] slices_S2x1600000_S1x1600000_0_0 (X (Proc.devRef .tc main_arg1)) := by
  unfold endpoints
  after_results
  rfl

set_option maxHeartbeats 4000000 in
theorem destinations_after0 : after (hostOps0 (F := Ideal)) X (Proc.devRef .tc main_v6)
    = endpoints ![1, 0] slices_S2x1600000_S1x1600000_1_0 (X (Proc.devRef .tc main_arg1)) := by
  unfold endpoints
  after_results
  rfl

set_option maxHeartbeats 16000000 in
theorem weights_after0 : after (hostOps0 (F := Ideal)) X (Proc.devRef .tc main_v26)
    = edgeWeight (endpoints ![0, 0] slices_S2x1600000_S1x1600000_0_0 (X (Proc.devRef .tc main_arg1)))
        (endpoints ![1, 0] slices_S2x1600000_S1x1600000_1_0 (X (Proc.devRef .tc main_arg1))) := by
  unfold edgeWeight degInvSqrt wrapped endpoints
  after_results
  rfl

theorem arg0_after0 : after (hostOps0 (F := Ideal)) X (Proc.devRef .tc main_arg0) = X (Proc.devRef .tc main_arg0) := by
  after_results_simp
theorem arg2_after0 : after (hostOps0 (F := Ideal)) X (Proc.devRef .tc main_arg2) = X (Proc.devRef .tc main_arg2) := by
  after_results_simp
theorem arg3_after0 : after (hostOps0 (F := Ideal)) X (Proc.devRef .tc main_arg3) = X (Proc.devRef .tc main_arg3) := by
  after_results_simp
theorem arg4_after0 : after (hostOps0 (F := Ideal)) X (Proc.devRef .tc main_arg4) = X (Proc.devRef .tc main_arg4) := by
  after_results_simp
theorem arg5_after0 : after (hostOps0 (F := Ideal)) X (Proc.devRef .tc main_arg5) = X (Proc.devRef .tc main_arg5) := by
  after_results_simp

/-! ### Between the first and the second region -/

set_option maxHeartbeats 2000000 in
theorem aggregate_after1 : after (hostOps1 (F := Ideal)) X (Proc.devRef .tc main_v40)
    = aggregate128 (X (Proc.devRef .tc main_v27)) (X (Proc.devRef .tc main_v3)) (X (Proc.devRef .tc main_v6)) (X (Proc.devRef .tc main_v26)) := by
  unfold aggregate128 wrapped
  after_results_simp

theorem bias_after1 : after (hostOps1 (F := Ideal)) X (Proc.devRef .tc main_v41)
    = shapeCast S1x128 (X (Proc.devRef .tc main_arg3)) shapeCasts_S128_S1x128 := by
  after_results_simp <;> rfl

theorem sources_after1 : after (hostOps1 (F := Ideal)) X (Proc.devRef .tc main_v3) = X (Proc.devRef .tc main_v3) := by
  after_results_simp
theorem destinations_after1 : after (hostOps1 (F := Ideal)) X (Proc.devRef .tc main_v6) = X (Proc.devRef .tc main_v6) := by
  after_results_simp
theorem weights_after1 : after (hostOps1 (F := Ideal)) X (Proc.devRef .tc main_v26) = X (Proc.devRef .tc main_v26) := by
  after_results_simp
theorem arg4_after1 : after (hostOps1 (F := Ideal)) X (Proc.devRef .tc main_arg4) = X (Proc.devRef .tc main_arg4) := by
  after_results_simp
theorem arg5_after1 : after (hostOps1 (F := Ideal)) X (Proc.devRef .tc main_arg5) = X (Proc.devRef .tc main_arg5) := by
  after_results_simp

/-! ### Between the second and the third region -/

set_option maxHeartbeats 2000000 in
theorem aggregate_after2 : after (hostOps2 (F := Ideal)) X (Proc.devRef .tc main_v55)
    = aggregate64 (X (Proc.devRef .tc main_v42)) (X (Proc.devRef .tc main_v3)) (X (Proc.devRef .tc main_v6)) (X (Proc.devRef .tc main_v26)) := by
  unfold aggregate64 wrapped
  after_results_simp

theorem bias_after2 : after (hostOps2 (F := Ideal)) X (Proc.devRef .tc main_v56)
    = shapeCast S1x64 (X (Proc.devRef .tc main_arg5)) shapeCasts_S64_S1x64 := by
  after_results_simp <;> rfl

end Cert.HostChains

end
-- ==== Proof.FirstProjection.lean ====
import proofs.«128818_j360777253171_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.FirstProjection

open Idealize.ShloMosaic Idealize.ShloMosaic.TcCoe Idealize.SL.Sem Idealize.ShloMosaic.ValueIdx
open Idealize.ShloMosaic.Pipeline (Dat)
open Cert.KernelIdeal Cert.KernelIdeal.Gen

/-- The TensorCore's buffer contents when a region is entered. -/
abbrev Contents := (c : Dev nD) → (b : Ref sig .tc) → Buf (Elt Ideal) ((c : Thread nD τ).loc b)

/-- Entry (r, q) of the product of a matrix of 100000 rows with a 128 × 128 matrix: the sum over k of x[r, k] · w[k, q]. -/
def rowsTimes (x : Vec Ideal S100000x128 .f32) (w : Vec Ideal S128x128 .f32) : Vec Ideal S100000x128 .f32 :=
  fun i => ∑ k : Fin 128, x (ix2 (⟨(i 0).val, (i 0).isLt⟩ : Fin 100000) k) * w (ix2 k (⟨(i 1).val, (i 1).isLt⟩ : Fin 128))

theorem origin : (![0, 0] : Fin 2 → Nat) = fun _ => 0 := funext fun a => by fin_cases a <;> rfl

/-! ## One block's product, entry by entry -/

/-- The left operand's row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores at (p, q) of its block: the sum over k of the row block's [p, k] times the weights' [k, q]
    (rounding to bf16 is the identity on the extended reals, and the accumulator starts at zero). -/
theorem block_product (v0 : Vec Ideal S5000x128 .f32) (v2 : Vec Ideal S128x128 .f32) (p : Fin 5000) (q : Fin 128) :
    k0_pay1 (F := Ideal) v0 v2 (ix2 p q) = ∑ k : Fin 128, v0 (ix2 p k) * v2 (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From the blocks to the array -/

/-- Over the grid: the row windows sit at row block t, the weights' window at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (V : Contents) (c : Dev nD) (t : Fin cfg0.N) :
    (dat0 (F := Ideal) V c).flushed 2 t
      = ((cfg0.win 2).blk t).view.read (Elt Ideal) (rowsTimes (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_maps t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = rowsTimes (V c main_arg0) (V c main_arg2) (((cfg0.win 2).blk t).view.emb (ix2 p q))
  rw [block_product]
  unfold rowsTimes
  refine Finset.sum_congr rfl fun k _ => ?_
  have hx : iblk0 V c 0 t (ix2 p k)
      = V c main_arg0 (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q)
      = V c main_arg2 (ix2 k (⟨((((cfg0.win 2).blk t).view.emb (ix2 p q)) 1).val, ((((cfg0.win 2).blk t).view.emb (ix2 p q)) 1).isLt⟩ : Fin 128)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Row r lies in the block of point r / 5000: the twenty row blocks tile the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_block]
  obtain ⟨e0, e1, e2, e3, e4, e5⟩ := index_maps ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- After the region the output array holds the whole product of the two arrays the region was entered with. -/
theorem final (V : Contents) (c : Dev nD) :
    (dat0 (F := Ideal) V c).arrAt 2 cfg0.N = rowsTimes (V c main_arg0) (V c main_arg2) :=
  (dat0 (F := Ideal) V c).arrAt_eq_of_cover 2 (rowsTimes (V c main_arg0) (V c main_arg2)) (fun t _ => flushed_eq V c t) covered

end Cert.FirstProjection

end
-- ==== Proof.HiddenProjection.lean ====
import proofs.«128818_j360777253171_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.HiddenProjection

open Idealize.ShloMosaic Idealize.ShloMosaic.TcCoe Idealize.SL.Sem Idealize.ShloMosaic.ValueIdx
open Idealize.ShloMosaic.Pipeline (Dat)
open Cert.KernelIdeal Cert.KernelIdeal.Gen

/-- The TensorCore's buffer contents when a region is entered. -/
abbrev Contents := (c : Dev nD) → (b : Ref sig .tc) → Buf (Elt Ideal) ((c : Thread nD τ).loc b)

/-- Entry (r, q) of relu(a + b) · w, the bias b a single row added to every row of a: the sum over k of
    max(a[r, k] + b[0, k], 0) · w[k, q]. -/
def reluTimes (a : Vec Ideal S100000x128 .f32) (b : Vec Ideal S1x128 .f32) (w : Vec Ideal S128x64 .f32) : Vec Ideal S100000x64 .f32 :=
  fun i => ∑ k : Fin 128,
    max (a (ix2 (⟨(i 0).val, (i 0).isLt⟩ : Fin 100000) k) + b (ix2 (0 : Fin 1) k)) (Ideal.ofBits .f32 0x00000000#32)
      * w (ix2 k (⟨(i 1).val, (i 1).isLt⟩ : Fin 64))

/-- The zero offsets of a whole-block access, spelt as the constant function. -/
theorem zeroOffsets : (![0, 0] : Fin 2 → Nat) = fun _ => 0 := funext fun a => by fin_cases a <;> rfl

/-! ## The block product at an index -/

/-- The left operand of the block product is read at the output's row … -/
theorem lhs_blockProduct_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and at the contraction index as its column; -/
theorem lhs_blockProduct_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand at the contraction index as its row … -/
theorem rhs_blockProduct_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and at the output's column. -/
theorem rhs_blockProduct_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 5000 × 128 block times a 128 × 64 block into the zero accumulator, at entry (p, q): the sum over k of
    l[p, k] · r[k, q]. -/
theorem blockProduct_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_blockProduct_0 _ _
    | ⟨1, _⟩ => exact (lhs_blockProduct_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_blockProduct_0 _ _).trans hk
    | ⟨1, _⟩ => exact rhs_blockProduct_1 _ _)
  rw [el, er]

/-- The body's result at entry (p, q) of its block: the sum over k of max(x[p, k] + b[0, k], 0) · w[k, q], for x the
    row block, b the bias row and w the weights. -/
theorem payload_apply (x : Vec Ideal S5000x128 .f32) (b : Vec Ideal S1x128 .f32) (w : Vec Ideal S128x64 .f32) (p : Fin 5000) (q : Fin 64) :
    k1_pay1 x b w (ix2 p q)
      = ∑ k : Fin 128, max (x (ix2 p k) + b (ix2 (0 : Fin 1) k)) (Ideal.ofBits .f32 0x00000000#32) * w (ix2 k q) := by
  unfold k1_pay1
  rw [blockProduct_apply]
  refine Finset.sum_congr rfl fun k _ => ?_
  rw [truncf_apply, truncf_apply, maximumf_apply, addf_apply, broadcast_apply, shapeCast_self, shapeCast_self, broadcastTo_1b_ab_apply]
  rfl

/-- The body's result on blocks that are pieces of whole arrays is the matching entry of relu(A + B) · W: x holds, on
    the row of block entry j, row (i 0) of A; b and w hold B and W; and j's column is i's. -/
theorem payload_eq_reluTimes (x : Vec Ideal S5000x128 .f32) (b : Vec Ideal S1x128 .f32) (w : Vec Ideal S128x64 .f32)
    (A : Vec Ideal S100000x128 .f32) (B : Vec Ideal S1x128 .f32) (W : Vec Ideal S128x64 .f32)
    (j : S5000x64.Idx) (i : S100000x64.Idx)
    (hx : ∀ (p : Fin 5000) (k : Fin 128), p.val = (j 0).val → x (ix2 p k) = A (ix2 (⟨(i 0).val, (i 0).isLt⟩ : Fin 100000) k))
    (hb : ∀ k : Fin 128, b (ix2 (0 : Fin 1) k) = B (ix2 (0 : Fin 1) k))
    (hw : ∀ (q : Fin 64) (k : Fin 128), q.val = (j 1).val → w (ix2 k q) = W (ix2 k (⟨(i 1).val, (i 1).isLt⟩ : Fin 64))) :
    k1_pay1 x b w j = reluTimes A B W i := by
  obtain ⟨p, q, rfl⟩ : ∃ (p : Fin 5000) (q : Fin 64), j = ix2 p q := ⟨j 0, j 1, eq_ix2 j⟩
  rw [payload_apply]
  unfold reluTimes
  refine Finset.sum_congr rfl fun k _ => ?_
  rw [hx p k rfl, hb k, hw q k rfl]

/-! ## From blocks to the array -/

/-- The printed index maps over the grid: at point t the row block and the output block are block t of their arrays'
    rows, and the bias row and the weights are their whole arrays. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of relu(a + b) · w of the arrays as the region finds them. -/
theorem flushed_eq (V : Contents) (c : Dev nD) (t : Fin cfg1.N) :
    (dat1 (F := Ideal) V c).flushed 3 t
      = ((cfg1.win 3).blk t).view.read (Elt Ideal) (reluTimes (V c main_v40) (V c main_v41) (V c main_arg4)) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S1x128) zeroOffsets, View.ld_unit_zero (S := S128x64) zeroOffsets]
  obtain ⟨e00, e01, e10, e11, e20, e21, e30, e31⟩ := blockIndices t
  funext j
  show k1_pay1 (iblk1 V c 0 t) (iblk1 V c 1 t) (iblk1 V c 2 t) j
    = reluTimes (V c main_v40) (V c main_v41) (V c main_arg4) (((cfg1.win 3).blk t).view.emb j)
  have hj0 : (j 0).val < 5000 := (j 0).isLt
  have hj1 : (j 1).val < 64 := (j 1).isLt
  refine payload_eq_reluTimes _ _ _ _ _ _ j _ (fun p k hp => ?_) (fun k => ?_) (fun q k hq => ?_)
  · show V c main_v40 (((cfg1.win 0).blk t).view.emb (ix2 p k)) = _
    refine congrArg (V c main_v40) (funext fun a => Fin.ext ?_)
    match a with
    | ⟨0, _⟩ =>
      show win1_0.index t (0 : Fin 2) * 5000 + 1 * p.val = win1_3.index t (0 : Fin 2) * 5000 + 1 * (j 0).val
      omega
    | ⟨1, _⟩ =>
      show win1_0.index t (1 : Fin 2) * 128 + 1 * k.val = k.val
      omega
  · show V c main_v41 (((cfg1.win 1).blk t).view.emb (ix2 (0 : Fin 1) k)) = _
    refine congrArg (V c main_v41) (funext fun a => Fin.ext ?_)
    match a with
    | ⟨0, _⟩ =>
      show win1_1.index t (0 : Fin 2) * 1 + 1 * 0 = 0
      omega
    | ⟨1, _⟩ =>
      show win1_1.index t (1 : Fin 2) * 128 + 1 * k.val = k.val
      omega
  · show V c main_arg4 (((cfg1.win 2).blk t).view.emb (ix2 k q)) = _
    refine congrArg (V c main_arg4) (funext fun a => Fin.ext ?_)
    match a with
    | ⟨0, _⟩ =>
      show win1_2.index t (0 : Fin 2) * 128 + 1 * k.val = k.val
      omega
    | ⟨1, _⟩ =>
      show win1_2.index t (1 : Fin 2) * 64 + 1 * q.val = win1_3.index t (1 : Fin 2) * 64 + 1 * (j 1).val
      omega

/-- An index of the output array is in point t's block iff each coordinate is in the block's range on its axis. -/
theorem mem_block (t : Fin cfg1.N) (i : S100000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v42).slice (win1_3.rect t)).set ↔ _
  rw [View.set_slice_whole, Rect.mem_set_unit]
  exact Iff.rfl

/-- Every row r of the output array is written back: it lies in the block of point r / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 5000 < cfg1.N := by rw [show cfg1.N = 20 from N_1]; omega
  obtain ⟨t, ht⟩ : ∃ t : Fin cfg1.N, t.val = (i 0).val / 5000 := ⟨⟨_, hlt⟩, rfl⟩
  obtain ⟨-, -, -, -, -, -, e30, e31⟩ := blockIndices t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- After the region the output array holds relu(a + b) · w of the arrays as the region finds them: every point writes
    back its block of it, and the blocks cover every row. -/
theorem final (V : Contents) (c : Dev nD) :
    (dat1 (F := Ideal) V c).arrAt 3 cfg1.N = reluTimes (V c main_v40) (V c main_v41) (V c main_arg4) :=
  (dat1 (F := Ideal) V c).arrAt_eq_of_cover 3 (reluTimes (V c main_v40) (V c main_v41) (V c main_arg4))
    (fun t _ => flushed_eq V c t) covered

end Cert.HiddenProjection

end
-- ==== Proof.RowLogSoftmax.lean ====
import proofs.«128818_j360777253171_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.RowLogSoftmax

open Idealize.ShloMosaic Idealize.ShloMosaic.TcCoe Idealize.SL.Sem Idealize.ShloMosaic.ValueIdx
open Idealize.ShloMosaic.Pipeline (Dat)
open Cert.KernelIdeal Cert.KernelIdeal.Gen

/-- The TensorCore's buffer contents when a region is entered. -/
abbrev Contents := (c : Dev nD) → (b : Ref sig .tc) → Buf (Elt Ideal) ((c : Thread nD τ).loc b)

/-- Row r of a + b (the bias b a single row), as a function of the column. -/
def biased (a : Vec Ideal S100000x64 .f32) (b : Vec Ideal S1x64 .f32) (r : Fin 100000) : Fin 64 → EReal :=
  fun k => a (ix2 r k) + b (ix2 (0 : Fin 1) k)

/-- The largest entry of a row, as the fold of max from −∞. -/
def rowMax (z : Fin 64 → EReal) : EReal :=
  (Finset.univ : Finset (Fin 64)).fold max (Ideal.ofBits .f32 0xFF800000#32) z

/-- Entry (r, q) of the row-wise log-softmax of a + b: with z the row and M its largest entry,
    (z q − M) − log (∑ k, exp (z k − M)). -/
def logSoftmaxRows (a : Vec Ideal S100000x64 .f32) (b : Vec Ideal S1x64 .f32) : Vec Ideal S100000x64 .f32 :=
  fun i =>
    (biased a b ⟨(i 0).val, (i 0).isLt⟩ ⟨(i 1).val, (i 1).isLt⟩ - rowMax (biased a b ⟨(i 0).val, (i 0).isLt⟩))
      - Ideal.log (∑ k : Fin 64, Ideal.exp (biased a b ⟨(i 0).val, (i 0).isLt⟩ k - rowMax (biased a b ⟨(i 0).val, (i 0).isLt⟩)))

/-! ## The keepdims column forms, and a row's index under the lane reduction -/

/-- An `[a]` vector cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Under the reduction of axis 1, the source index over row `p` with column `k` inserted is `(p, k)`. -/
theorem lift_row (h : S5000x64.Reduces [1] S5000) (p : Fin 5000) (k : Fin 64) :
    h.lift (ix1 p) k = ix2 p k :=
  funext fun a => Fin.ext (by match a with | ⟨0, _⟩ => rfl | ⟨1, _⟩ => rfl)

/-- The block plus the bias row, at row `p` and column `k`. -/
theorem biasedBlock_apply (x0 : Vec Ideal S5000x64 .f32) (x1 : Vec Ideal S1x64 .f32) (p : Fin 5000) (k : Fin 64) :
    (addf (shapeCast S5000x64 x0 shapeCasts_S5000x64_S5000x64)
        (broadcastTo S5000x64 (shapeCast S1x64 x1 shapeCasts_S1x64_S1x64) broadcasts_S1x64_S5000x64) : FVec Ideal S5000x64 .f32) (ix2 p k)
      = x0 (ix2 p k) + x1 (ix2 (0 : Fin 1) k) := by
  rw [addf_apply, shapeCast_self, shapeCast_self, broadcastTo_1b_ab_apply]

/-- The row maximum kept as a column and spread over the row: at `(p, q)` it is the largest entry of row `p`. -/
theorem rowMaxSpread_apply (z : FVec Ideal S5000x64 .f32) (hφ : FKind.Formats .f32)
    (hacc : (0xFF800000#32 : BitVec 32) = FKind.maximumf.neutral .f32 hφ) (p : Fin 5000) (q : Fin 64) :
    (broadcastTo S5000x64 (shapeCast S5000x1
        (multiReduction (F := Ideal) .maximumf [1] S5000 z 0xFF800000#32 reduces_S5000x64_S5000 hφ hacc)
        shapeCasts_S5000_S5000x1) broadcasts_S5000x1_S5000x64 : FVec Ideal S5000x64 .f32) (ix2 p q)
      = rowMax (fun k => z (ix2 p k)) := by
  refine (broadcastTo_a1_ab_apply _ _ p q).trans ?_
  refine (shapeCast_a_a1_apply _ _ p (0 : Fin 1)).trans ?_
  refine (Ideal.multiReduction_maximumf_single z _ reduces_S5000x64_S5000 hφ hacc (ix1 p)).trans ?_
  have e : (z ∘ reduces_S5000x64_S5000.lift (ix1 p)) = fun k : Fin 64 => z (ix2 p k) :=
    funext fun k => congrArg z (lift_row _ p k)
  rw [e]; rfl

/-- The logarithm of the row sum kept as a column and spread over the row: at `(p, q)` it is the logarithm of the sum of row `p`. -/
theorem logRowSumSpread_apply (y : FVec Ideal S5000x64 .f32) (hφ : FKind.Formats .f32)
    (hacc : (0x00000000#32 : BitVec 32) = FKind.add.neutral .f32 hφ) (p : Fin 5000) (q : Fin 64) :
    (broadcastTo S5000x64 (log (shapeCast S5000x1
        (multiReduction (F := Ideal) .add [1] S5000 y 0x00000000#32 reduces_S5000x64_S5000 hφ hacc)
        shapeCasts_S5000_S5000x1)) broadcasts_S5000x1_S5000x64 : FVec Ideal S5000x64 .f32) (ix2 p q)
      = Ideal.log (∑ k : Fin 64, y (ix2 p k)) := by
  refine (broadcastTo_a1_ab_apply _ _ p q).trans ?_
  show Ideal.log (shapeCast S5000x1 _ shapeCasts_S5000_S5000x1 (ix2 p (0 : Fin 1))) = _
  refine congrArg Ideal.log ?_
  refine (shapeCast_a_a1_apply _ _ p (0 : Fin 1)).trans ?_
  refine (Ideal.multiReduction_add_single y _ reduces_S5000x64_S5000 hφ hacc (ix1 p)).trans ?_
  exact Finset.sum_congr rfl fun k _ => congrArg y (lift_row _ p k)

/-- Row `p` of a block plus the bias row, as a function of the column. -/
def blockRow (x0 : Vec Ideal S5000x64 .f32) (x1 : Vec Ideal S1x64 .f32) (p : Fin 5000) : Fin 64 → EReal :=
  fun k => x0 (ix2 p k) + x1 (ix2 (0 : Fin 1) k)

/-- The spread row maximum of the block plus the bias row, at `(p, q)`: the largest entry of that row. -/
theorem biasedRowMax_apply (x0 : Vec Ideal S5000x64 .f32) (x1 : Vec Ideal S1x64 .f32) (hφ : FKind.Formats .f32)
    (hacc : (0xFF800000#32 : BitVec 32) = FKind.maximumf.neutral .f32 hφ) (p : Fin 5000) (q : Fin 64) :
    (broadcastTo S5000x64 (shapeCast S5000x1
        (multiReduction (F := Ideal) .maximumf [1] S5000
          (addf (shapeCast S5000x64 x0 shapeCasts_S5000x64_S5000x64)
            (broadcastTo S5000x64 (shapeCast S1x64 x1 shapeCasts_S1x64_S1x64) broadcasts_S1x64_S5000x64))
          0xFF800000#32 reduces_S5000x64_S5000 hφ hacc)
        shapeCasts_S5000_S5000x1) broadcasts_S5000x1_S5000x64 : FVec Ideal S5000x64 .f32) (ix2 p q)
      = rowMax (blockRow x0 x1 p) :=
  (rowMaxSpread_apply _ hφ hacc p q).trans (congrArg rowMax (funext fun k => biasedBlock_apply x0 x1 p k))

/-- THE BODY'S PAYLOAD AT AN INDEX: with `z` row `p` of the block plus the bias row and `M` its largest entry,
    entry `(p, q)` is `(z q − M) − log (∑ k, exp (z k − M))`. -/
theorem blockLogSoftmax_apply (x0 : Vec Ideal S5000x64 .f32) (x1 : Vec Ideal S1x64 .f32) (p : Fin 5000) (q : Fin 64) :
    k2_pay1 (F := Ideal) x0 x1 (ix2 p q)
      = (blockRow x0 x1 p q - rowMax (blockRow x0 x1 p))
        - Ideal.log (∑ k : Fin 64, Ideal.exp (blockRow x0 x1 p k - rowMax (blockRow x0 x1 p))) := by
  unfold k2_pay1
  rw [subf_apply, subf_apply]
  refine congrArg₂ (fun a b : EReal => a - b)
    (congrArg₂ (fun a b : EReal => a - b) (biasedBlock_apply x0 x1 p q) (biasedRowMax_apply x0 x1 _ _ p q)) ?_
  refine (logRowSumSpread_apply _ _ _ p q).trans (congrArg Ideal.log (Finset.sum_congr rfl fun k _ => ?_))
  refine congrArg Ideal.exp ?_
  rw [subf_apply]
  exact congrArg₂ (fun a b : EReal => a - b) (biasedBlock_apply x0 x1 p k) (biasedRowMax_apply x0 x1 _ _ p k)

/-! ## From blocks to the array -/

theorem origin : (![0, 0] : Fin 2 → Nat) = fun _ => 0 := funext fun a => by fin_cases a <;> rfl

/-- The printed index maps, decided over the grid: point `t` takes row block `t` of the input and writes row block `t`
    of the output; the bias row's block is always the whole row. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole-array function at an index whose row is `r` and whose column is `q`. -/
theorem logSoftmaxRows_apply (a : Vec Ideal S100000x64 .f32) (b : Vec Ideal S1x64 .f32) (i : S100000x64.Idx)
    (r : Fin 100000) (q : Fin 64) (hr : (i 0).val = r.val) (hq : (i 1).val = q.val) :
    logSoftmaxRows a b i
      = (biased a b r q - rowMax (biased a b r)) - Ideal.log (∑ k : Fin 64, Ideal.exp (biased a b r k - rowMax (biased a b r))) := by
  have e0 : (⟨(i 0).val, (i 0).isLt⟩ : Fin 100000) = r := Fin.ext hr
  have e1 : (⟨(i 1).val, (i 1).isLt⟩ : Fin 64) = q := Fin.ext hq
  show (biased a b ⟨(i 0).val, (i 0).isLt⟩ ⟨(i 1).val, (i 1).isLt⟩ - rowMax (biased a b ⟨(i 0).val, (i 0).isLt⟩))
      - Ideal.log (∑ k : Fin 64, Ideal.exp (biased a b ⟨(i 0).val, (i 0).isLt⟩ k - rowMax (biased a b ⟨(i 0).val, (i 0).isLt⟩))) = _
  rw [e0, e1]

/-- WHAT POINT `t` WRITES BACK is block `t` of the row-wise log-softmax of the two arrays the region was entered with. -/
theorem flushed_eq (V : Contents) (c : Dev nD) (t : Fin cfg2.N) :
    (dat2 (F := Ideal) V c).flushed 2 t
      = ((cfg2.win 2).blk t).view.read (Elt Ideal) (logSoftmaxRows (V c main_v55) (V c main_v56)) := by
  show (cfg2.win 2).cut (grid2.coords t) ((dat2 (F := Ideal) V c).after 2 t) = _
  rw [after2_2]
  unfold out2_2
  rw [View.canon_unit_zero origin]
  simp only [View.ld_unit_zero (S := S5000x64) origin, View.ld_unit_zero (S := S1x64) origin]
  obtain ⟨e0, e1, e2, e3, e4, e5⟩ := blockIndices t
  have hN : cfg2.N = 20 := N_2
  have ht : t.val < 20 := hN ▸ t.isLt
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = logSoftmaxRows (V c main_v55) (V c main_v56) (((cfg2.win 2).blk t).view.emb (ix2 p q))
  have hr : ((((cfg2.win 2).blk t).view.emb (ix2 p q)) 0).val
      = (⟨t.val * 5000 + p.val, by have := p.isLt; omega⟩ : Fin 100000).val := by
    show win2_2.index t (0 : Fin 2) * 5000 + 1 * p.val = t.val * 5000 + p.val; omega
  have hq : ((((cfg2.win 2).blk t).view.emb (ix2 p q)) 1).val = q.val := by
    show win2_2.index t (1 : Fin 2) * 64 + 1 * q.val = q.val; omega
  rw [blockLogSoftmax_apply, logSoftmaxRows_apply _ _ _ _ q hr hq]
  have hrow : blockRow (iblk2 V c 0 t) (iblk2 V c 1 t) p
      = biased (V c main_v55) (V c main_v56) ⟨t.val * 5000 + p.val, by have := p.isLt; omega⟩ := funext fun k => by
    refine congrArg₂ (fun a b : EReal => a + b) ?_ ?_
    · show V c main_v55 (((cfg2.win 0).blk t).view.emb (ix2 p k)) = _
      refine congrArg (V c main_v55) (funext fun a => Fin.ext ?_)
      match a with
      | ⟨0, _⟩ => show win2_0.index t (0 : Fin 2) * 5000 + 1 * p.val = t.val * 5000 + p.val; omega
      | ⟨1, _⟩ => show win2_0.index t (1 : Fin 2) * 64 + 1 * k.val = k.val; omega
    · show V c main_v56 (((cfg2.win 1).blk t).view.emb (ix2 (0 : Fin 1) k)) = _
      refine congrArg (V c main_v56) (funext fun a => Fin.ext ?_)
      match a with
      | ⟨0, _⟩ => show win2_1.index t (0 : Fin 2) * 1 + 1 * 0 = 0; omega
      | ⟨1, _⟩ => show win2_1.index t (1 : Fin 2) * 64 + 1 * k.val = k.val; omega
  rw [hrow]

/-- An index of the array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v57).slice (win2_2.rect t)).set ↔ _
  rw [View.set_slice_whole, Rect.mem_set_unit]
  exact Iff.rfl

/-- Row `r` lies in the block of point `r / 5000`: the twenty row blocks tile the array. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_block]
  obtain ⟨e0, e1, e2, e3, e4, e5⟩ := blockIndices ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e5]; omega

theorem final (V : Contents) (c : Dev nD) :
    (dat2 (F := Ideal) V c).arrAt 2 cfg2.N = logSoftmaxRows (V c main_v55) (V c main_v56) :=
  (dat2 (F := Ideal) V c).arrAt_eq_of_cover 2 (logSoftmaxRows (V c main_v55) (V c main_v56))
    (fun t _ => flushed_eq V c t) covered

end Cert.RowLogSoftmax

end
-- ==== Proof.Network.lean ====
import proofs.«128818_j360777253171_1_alg».proof.Proof.Gen.KernelIdeal.Frame
import proofs.«128818_j360777253171_1_alg».proof.Proof.HostChains
import proofs.«128818_j360777253171_1_alg».proof.Proof.FirstProjection
import proofs.«128818_j360777253171_1_alg».proof.Proof.HiddenProjection
import proofs.«128818_j360777253171_1_alg».proof.Proof.RowLogSoftmax

set_option maxRecDepth 16384

noncomputable section

namespace Cert.Network

open Idealize.ShloMosaic Idealize.ShloMosaic.TcCoe Idealize.SL.Sem Idealize.ShloMosaic.StableHlo
open Cert.KernelIdeal Cert.KernelIdeal.Gen Cert.HostChains

/-! ## The two-layer network as one function of the six arguments -/

abbrev Edges := (⟨S2x1600000, .i32⟩ : BufTy).Contents (Elt Ideal)

/-- Every edge's source node, then one self loop per node. -/
def sources (e : Edges) : Nodes := endpoints ![0, 0] slices_S2x1600000_S1x1600000_0_0 e
/-- Every edge's destination node, then one self loop per node. -/
def destinations (e : Edges) : Nodes := endpoints ![1, 0] slices_S2x1600000_S1x1600000_1_0 e
/-- Every edge's weight. -/
def weights (e : Edges) : Weights := edgeWeight (sources e) (destinations e)

/-- The first layer before its bias: aggregate the rows of x · W1 over the edges. -/
def layer1 (x : FVec Ideal S100000x128 .f32) (e : Edges) (w1 : FVec Ideal S128x128 .f32) : FVec Ideal S100000x128 .f32 :=
  aggregate128 (Cert.FirstProjection.rowsTimes x w1) (sources e) (destinations e) (weights e)

/-- The second layer before its bias: aggregate the rows of relu(layer1 + b1) · W2 over the edges. -/
def layer2 (x : FVec Ideal S100000x128 .f32) (e : Edges) (w1 : FVec Ideal S128x128 .f32) (b1 : FVec Ideal S128 .f32)
    (w2 : FVec Ideal S128x64 .f32) : FVec Ideal S100000x64 .f32 :=
  aggregate64 (Cert.HiddenProjection.reluTimes (layer1 x e w1) (shapeCast S1x128 b1 shapeCasts_S128_S1x128) w2)
    (sources e) (destinations e) (weights e)

/-- The network's output: the row-wise log-softmax of layer2 + b2. -/
def network (x : FVec Ideal S100000x128 .f32) (e : Edges) (w1 : FVec Ideal S128x128 .f32) (b1 : FVec Ideal S128 .f32)
    (w2 : FVec Ideal S128x64 .f32) (b2 : FVec Ideal S64 .f32) : FVec Ideal S100000x64 .f32 :=
  Cert.RowLogSoftmax.logSoftmaxRows (layer2 x e w1 b1 w2) (shapeCast S1x64 b2 shapeCasts_S64_S1x64)

/-! ## The kernel program's buffers at each boundary of @main -/

variable (m : (ℓ : Loc nD τ sig) → Buf (Elt Ideal) ℓ) (ρ : Dev nD → PrngReg) (c : Dev nD)

/-- Argument 0 as launched. -/
abbrev a0 := m ((c.tc : Thread nD τ).loc main_arg0)
/-- Argument 1 as launched. -/
abbrev a1 := m ((c.tc : Thread nD τ).loc main_arg1)
/-- Argument 2 as launched. -/
abbrev a2 := m ((c.tc : Thread nD τ).loc main_arg2)
/-- Argument 3 as launched. -/
abbrev a3 := m ((c.tc : Thread nD τ).loc main_arg3)
/-- Argument 4 as launched. -/
abbrev a4 := m ((c.tc : Thread nD τ).loc main_arg4)
/-- Argument 5 as launched. -/
abbrev a5 := m ((c.tc : Thread nD τ).loc main_arg5)

/-! ### When the first region is entered -/

theorem sources_at1 : W1 m ρ c (Proc.devRef .tc main_v3) = sources (a1 m c) := sources_after0 (W0 m ρ c)
theorem destinations_at1 : W1 m ρ c (Proc.devRef .tc main_v6) = destinations (a1 m c) := destinations_after0 (W0 m ρ c)
theorem weights_at1 : W1 m ρ c (Proc.devRef .tc main_v26) = weights (a1 m c) := weights_after0 (W0 m ρ c)
theorem arg0_at1 : W1 m ρ c (Proc.devRef .tc main_arg0) = (a0 m c) := arg0_after0 (W0 m ρ c)
theorem arg2_at1 : W1 m ρ c (Proc.devRef .tc main_arg2) = (a2 m c) := arg2_after0 (W0 m ρ c)
theorem arg3_at1 : W1 m ρ c (Proc.devRef .tc main_arg3) = (a3 m c) := arg3_after0 (W0 m ρ c)
theorem arg4_at1 : W1 m ρ c (Proc.devRef .tc main_arg4) = (a4 m c) := arg4_after0 (W0 m ρ c)
theorem arg5_at1 : W1 m ρ c (Proc.devRef .tc main_arg5) = (a5 m c) := arg5_after0 (W0 m ρ c)

/-! ### When the first region is left -/

theorem product_at2 : W2 m ρ c (Proc.devRef .tc main_v27) = Cert.FirstProjection.rowsTimes (a0 m c) (a2 m c) :=
  (W2_arr m ρ c 2).trans ((Cert.FirstProjection.final (V1 m ρ) c).trans
    (congr (congrArg Cert.FirstProjection.rowsTimes (arg0_at1 m ρ c)) (arg2_at1 m ρ c)))
theorem sources_at2 : W2 m ρ c (Proc.devRef .tc main_v3) = sources (a1 m c) :=
  (W2_of_ne m ρ c main_v3 (by decide)).trans (sources_at1 m ρ c)
theorem destinations_at2 : W2 m ρ c (Proc.devRef .tc main_v6) = destinations (a1 m c) :=
  (W2_of_ne m ρ c main_v6 (by decide)).trans (destinations_at1 m ρ c)
theorem weights_at2 : W2 m ρ c (Proc.devRef .tc main_v26) = weights (a1 m c) :=
  (W2_of_ne m ρ c main_v26 (by decide)).trans (weights_at1 m ρ c)
theorem arg3_at2 : W2 m ρ c (Proc.devRef .tc main_arg3) = (a3 m c) :=
  (W2_of_ne m ρ c main_arg3 (by decide)).trans (arg3_at1 m ρ c)
theorem arg4_at2 : W2 m ρ c (Proc.devRef .tc main_arg4) = (a4 m c) :=
  (W2_of_ne m ρ c main_arg4 (by decide)).trans (arg4_at1 m ρ c)
theorem arg5_at2 : W2 m ρ c (Proc.devRef .tc main_arg5) = (a5 m c) :=
  (W2_of_ne m ρ c main_arg5 (by decide)).trans (arg5_at1 m ρ c)

/-! ### When the second region is entered -/

theorem layer1_at3 : W3 m ρ c (Proc.devRef .tc main_v40) = layer1 (a0 m c) (a1 m c) (a2 m c) := by
  refine (aggregate_after1 (W2 m ρ c)).trans ?_
  rw [product_at2 m ρ c, sources_at2 m ρ c, destinations_at2 m ρ c, weights_at2 m ρ c]
  rfl
theorem bias_at3 : W3 m ρ c (Proc.devRef .tc main_v41) = shapeCast S1x128 (a3 m c) shapeCasts_S128_S1x128 := by
  refine (bias_after1 (W2 m ρ c)).trans ?_
  rw [arg3_at2 m ρ c]
theorem arg4_at3 : W3 m ρ c (Proc.devRef .tc main_arg4) = (a4 m c) := (arg4_after1 (W2 m ρ c)).trans (arg4_at2 m ρ c)
theorem arg5_at3 : W3 m ρ c (Proc.devRef .tc main_arg5) = (a5 m c) := (arg5_after1 (W2 m ρ c)).trans (arg5_at2 m ρ c)
theorem sources_at3 : W3 m ρ c (Proc.devRef .tc main_v3) = sources (a1 m c) := (sources_after1 (W2 m ρ c)).trans (sources_at2 m ρ c)
theorem destinations_at3 : W3 m ρ c (Proc.devRef .tc main_v6) = destinations (a1 m c) :=
  (destinations_after1 (W2 m ρ c)).trans (destinations_at2 m ρ c)
theorem weights_at3 : W3 m ρ c (Proc.devRef .tc main_v26) = weights (a1 m c) := (weights_after1 (W2 m ρ c)).trans (weights_at2 m ρ c)

/-! ### When the second region is left -/

theorem hidden_at4 : W4 m ρ c (Proc.devRef .tc main_v42)
    = Cert.HiddenProjection.reluTimes (layer1 (a0 m c) (a1 m c) (a2 m c)) (shapeCast S1x128 (a3 m c) shapeCasts_S128_S1x128) (a4 m c) :=
  (W4_arr m ρ c 3).trans ((Cert.HiddenProjection.final (V3 m ρ) c).trans
    (congr (congr (congrArg Cert.HiddenProjection.reluTimes (layer1_at3 m ρ c)) (bias_at3 m ρ c)) (arg4_at3 m ρ c)))
theorem sources_at4 : W4 m ρ c (Proc.devRef .tc main_v3) = sources (a1 m c) :=
  (W4_of_ne m ρ c main_v3 (by decide)).trans (sources_at3 m ρ c)
theorem destinations_at4 : W4 m ρ c (Proc.devRef .tc main_v6) = destinations (a1 m c) :=
  (W4_of_ne m ρ c main_v6 (by decide)).trans (destinations_at3 m ρ c)
theorem weights_at4 : W4 m ρ c (Proc.devRef .tc main_v26) = weights (a1 m c) :=
  (W4_of_ne m ρ c main_v26 (by decide)).trans (weights_at3 m ρ c)
theorem arg5_at4 : W4 m ρ c (Proc.devRef .tc main_arg5) = (a5 m c) :=
  (W4_of_ne m ρ c main_arg5 (by decide)).trans (arg5_at3 m ρ c)

/-! ### When the third region is entered -/

theorem layer2_at5 : W5 m ρ c (Proc.devRef .tc main_v55) = layer2 (a0 m c) (a1 m c) (a2 m c) (a3 m c) (a4 m c) := by
  refine (aggregate_after2 (W4 m ρ c)).trans ?_
  rw [hidden_at4 m ρ c, sources_at4 m ρ c, destinations_at4 m ρ c, weights_at4 m ρ c]
  rfl
theorem bias_at5 : W5 m ρ c (Proc.devRef .tc main_v56) = shapeCast S1x64 (a5 m c) shapeCasts_S64_S1x64 := by
  refine (bias_after2 (W4 m ρ c)).trans ?_
  rw [arg5_at4 m ρ c]

/-! ### At the end -/

/-- The kernel program's result buffer ends holding the network's output of the arguments it was launched with. -/
theorem result : W6 m ρ c (Proc.devRef .tc main_v57) = network (a0 m c) (a1 m c) (a2 m c) (a3 m c) (a4 m c) (a5 m c) :=
  (W6_arr m ρ c 2).trans ((Cert.RowLogSoftmax.final (V5 m ρ) c).trans
    (congr (congrArg Cert.RowLogSoftmax.logSoftmaxRows (layer2_at5 m ρ c)) (bias_at5 m ρ c)))

end Cert.Network

end
-- ==== Proof.ReferenceRun.lean ====
import proofs.«128818_j360777253171_1_alg».proof.Proof.RefRead
import Idealize.ShloMosaic.Lib.StableHlo.Run
import Idealize.ShloMosaic.PureOps.Ideal

set_option maxRecDepth 16384

noncomputable section

namespace Cert.ReferenceRun

open Idealize.ShloMosaic Idealize.ShloMosaic.TcCoe Idealize.SL.Sem Idealize.ShloMosaic.StableHlo
open Cert.ReferenceIdeal Cert.ReferenceIdeal.ValueP Cert.ReferenceIdeal.ReadP

/-- Running one list of operations after another is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A run cut at position n: the first n operations, then the rest. -/
theorem after_take_drop (n : Nat) (l : List (HloOp τ sig (Elt Ideal))) (V : Valuation τ sig (Elt Ideal)) :
    after l V = after (l.drop n) (after (l.take n) V) := by
  rw [← after_append, List.take_append_drop]

/-- A run from position k cut n operations later, at position m = k + n. -/
theorem after_drop_take (k n m : Nat) (h : k + n = m) (l : List (HloOp τ sig (Elt Ideal))) (V : Valuation τ sig (Elt Ideal)) :
    after (l.drop k) V = after (l.drop m) (after ((l.drop k).take n) V) := by
  subst h
  rw [after_take_drop n (l.drop k), List.drop_drop]

variable (X : Valuation τ sig (Elt Ideal))

/-! ## The stretches, each from any contents -/

set_option maxHeartbeats 4000000 in
/-- The first seven operations leave the edges' sources, self loops appended, … -/
theorem stage_sources (x1 : (⟨S2x1600000, .i32⟩ : BufTy).Contents (Elt Ideal)) (h1 : X (Proc.devRef .tc main_arg1) = x1) :
    after ((ops (F := Ideal)).take 7) X (Proc.devRef .tc main_v3) = val_main_v3 (F := Ideal) x1 := by
  simp only [ops, List.take_succ_cons, List.take_zero]
  unfold val_main_v3 val_main_v2 val_main_v1 val_main_v0
  rw [← h1]
  after_results <;> (try simp only [TRef.ofBuf, TRef.toBuf, cast_eq]) <;> rfl

set_option maxHeartbeats 4000000 in
/-- … and their destinations likewise. -/
theorem stage_destinations (x1 : (⟨S2x1600000, .i32⟩ : BufTy).Contents (Elt Ideal)) (h1 : X (Proc.devRef .tc main_arg1) = x1) :
    after ((ops (F := Ideal)).take 7) X (Proc.devRef .tc main_v6) = val_main_v6 (F := Ideal) x1 := by
  simp only [ops, List.take_succ_cons, List.take_zero]
  unfold val_main_v6 val_main_v5 val_main_v4 val_main_v0
  rw [← h1]
  after_results <;> (try simp only [TRef.ofBuf, TRef.toBuf, cast_eq]) <;> rfl

/-- They write none of the other arguments. -/
theorem endpoints_kept :
    after ((ops (F := Ideal)).take 7) X (Proc.devRef .tc main_arg0) = X (Proc.devRef .tc main_arg0)
    ∧ after ((ops (F := Ideal)).take 7) X (Proc.devRef .tc main_arg2) = X (Proc.devRef .tc main_arg2)
    ∧ after ((ops (F := Ideal)).take 7) X (Proc.devRef .tc main_arg3) = X (Proc.devRef .tc main_arg3)
    ∧ after ((ops (F := Ideal)).take 7) X (Proc.devRef .tc main_arg4) = X (Proc.devRef .tc main_arg4)
    ∧ after ((ops (F := Ideal)).take 7) X (Proc.devRef .tc main_arg5) = X (Proc.devRef .tc main_arg5) := by
  simp only [ops, List.take_succ_cons, List.take_zero]
  refine ⟨?_, ?_, ?_, ?_, ?_⟩ <;> after_results_simp

set_option maxHeartbeats 4000000 in
/-- The next 27 operations leave deg^(-1/2), each node's degree counting the edges that end at it, … -/
theorem stage_degree (x1 : (⟨S2x1600000, .i32⟩ : BufTy).Contents (Elt Ideal))
    (h6 : X (Proc.devRef .tc main_v6) = val_main_v6 (F := Ideal) x1) :
    after (((ops (F := Ideal)).drop 7).take 27) X (Proc.devRef .tc main_v11) = val_main_v11 (F := Ideal) x1 := by
  simp only [ops, List.drop_succ_cons, List.drop_zero, List.take_succ_cons, List.take_zero]
  unfold val_main_v11 val_main_v10 val_main_v9 val_main_v8 val_main_v7 val_main_cst_0 val_main_cst
  rw [← h6]
  after_results_simp <;> (try simp only [TRef.ofBuf, TRef.toBuf, cast_eq]) <;> rfl

set_option maxHeartbeats 4000000 in
/-- … the features times the first weights, … -/
theorem stage_projected (x0 : (⟨S100000x128, .f32⟩ : BufTy).Contents (Elt Ideal)) (x2 : (⟨S128x128, .f32⟩ : BufTy).Contents (Elt Ideal))
    (h0 : X (Proc.devRef .tc main_arg0) = x0) (h2 : X (Proc.devRef .tc main_arg2) = x2) :
    after (((ops (F := Ideal)).drop 7).take 27) X (Proc.devRef .tc main_v12) = val_main_v12 (F := Ideal) x0 x2 := by
  simp only [ops, List.drop_succ_cons, List.drop_zero, List.take_succ_cons, List.take_zero]
  unfold val_main_v12
  rw [← h0, ← h2]
  after_results_simp <;> (try simp only [TRef.ofBuf, TRef.toBuf, cast_eq]) <;> rfl

set_option maxHeartbeats 4000000 in
/-- … and each edge's weight, deg^(-1/2) at its source times deg^(-1/2) at its destination. -/
theorem stage_weights (x1 : (⟨S2x1600000, .i32⟩ : BufTy).Contents (Elt Ideal))
    (h3 : X (Proc.devRef .tc main_v3) = val_main_v3 (F := Ideal) x1)
    (h6 : X (Proc.devRef .tc main_v6) = val_main_v6 (F := Ideal) x1) :
    after (((ops (F := Ideal)).drop 7).take 27) X (Proc.devRef .tc main_v27) = val_main_v27 (F := Ideal) x1 := by
  simp only [ops, List.drop_succ_cons, List.drop_zero, List.take_succ_cons, List.take_zero]
  unfold val_main_v27 val_main_v26 val_main_v25 val_main_v24 val_main_v23 val_main_v22 val_main_c_3 val_main_v21 val_main_v20
    val_main_c_2 val_main_v19 val_main_v18 val_main_v17 val_main_v16 val_main_v15 val_main_c_1 val_main_v14 val_main_v13 val_main_c
    val_main_v11 val_main_v10 val_main_v9 val_main_v8 val_main_v7 val_main_cst_0 val_main_cst
  rw [← h3, ← h6]
  after_results_simp <;> (try simp only [TRef.ofBuf, TRef.toBuf, cast_eq]) <;> rfl

/-- They write neither the endpoints nor the arguments still to be read. -/
theorem weights_kept :
    after (((ops (F := Ideal)).drop 7).take 27) X (Proc.devRef .tc main_v3) = X (Proc.devRef .tc main_v3)
    ∧ after (((ops (F := Ideal)).drop 7).take 27) X (Proc.devRef .tc main_v6) = X (Proc.devRef .tc main_v6)
    ∧ after (((ops (F := Ideal)).drop 7).take 27) X (Proc.devRef .tc main_arg3) = X (Proc.devRef .tc main_arg3)
    ∧ after (((ops (F := Ideal)).drop 7).take 27) X (Proc.devRef .tc main_arg4) = X (Proc.devRef .tc main_arg4)
    ∧ after (((ops (F := Ideal)).drop 7).take 27) X (Proc.devRef .tc main_arg5) = X (Proc.devRef .tc main_arg5) := by
  simp only [ops, List.drop_succ_cons, List.drop_zero, List.take_succ_cons, List.take_zero]
  refine ⟨?_, ?_, ?_, ?_, ?_⟩ <;> after_results_simp

set_option maxHeartbeats 4000000 in
/-- The next 16 operations leave the first aggregation: the projected features of each edge's source, times the edge's
    weight, added up at its destination. -/
theorem stage_aggregated (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (h3 : X (Proc.devRef .tc main_v3) = val_main_v3 (F := Ideal) x1)
    (h6 : X (Proc.devRef .tc main_v6) = val_main_v6 (F := Ideal) x1)
    (h12 : X (Proc.devRef .tc main_v12) = val_main_v12 (F := Ideal) x0 x2)
    (h27 : X (Proc.devRef .tc main_v27) = val_main_v27 (F := Ideal) x1) :
    after (((ops (F := Ideal)).drop 34).take 16) X (Proc.devRef .tc main_v40) = val_main_v40 (F := Ideal) x0 x1 x2 := by
  simp only [ops, List.drop_succ_cons, List.drop_zero, List.take_succ_cons, List.take_zero]
  unfold val_main_v40 val_main_v39 val_main_v38 val_main_cst_6 val_main_v37 val_main_v36 val_main_v35 val_main_v34 val_main_v33
    val_main_v32 val_main_v31 val_main_v30 val_main_c_5 val_main_v29 val_main_v28 val_main_c_4
  rw [← h3, ← h6, ← h12, ← h27]
  after_results_simp <;> (try simp only [TRef.ofBuf, TRef.toBuf, cast_eq]) <;> rfl

/-- They write none of the endpoints, deg^(-1/2) and the arguments still to be read. -/
theorem aggregated_kept :
    after (((ops (F := Ideal)).drop 34).take 16) X (Proc.devRef .tc main_v3) = X (Proc.devRef .tc main_v3)
    ∧ after (((ops (F := Ideal)).drop 34).take 16) X (Proc.devRef .tc main_v6) = X (Proc.devRef .tc main_v6)
    ∧ after (((ops (F := Ideal)).drop 34).take 16) X (Proc.devRef .tc main_v11) = X (Proc.devRef .tc main_v11)
    ∧ after (((ops (F := Ideal)).drop 34).take 16) X (Proc.devRef .tc main_arg3) = X (Proc.devRef .tc main_arg3)
    ∧ after (((ops (F := Ideal)).drop 34).take 16) X (Proc.devRef .tc main_arg4) = X (Proc.devRef .tc main_arg4)
    ∧ after (((ops (F := Ideal)).drop 34).take 16) X (Proc.devRef .tc main_arg5) = X (Proc.devRef .tc main_arg5) := by
  simp only [ops, List.drop_succ_cons, List.drop_zero, List.take_succ_cons, List.take_zero]
  refine ⟨?_, ?_, ?_, ?_, ?_, ?_⟩ <;> after_results_simp

set_option maxHeartbeats 4000000 in
/-- The next 7 operations leave the hidden layer's projection: relu of the aggregation plus the bias, times the second weights. -/
theorem stage_hidden (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal))
    (h40 : X (Proc.devRef .tc main_v40) = val_main_v40 (F := Ideal) x0 x1 x2)
    (h3 : X (Proc.devRef .tc main_arg3) = x3) (h4 : X (Proc.devRef .tc main_arg4) = x4) :
    after (((ops (F := Ideal)).drop 50).take 7) X (Proc.devRef .tc main_v45) = val_main_v45 (F := Ideal) x0 x1 x2 x3 x4 := by
  simp only [ops, List.drop_succ_cons, List.drop_zero, List.take_succ_cons, List.take_zero]
  unfold val_main_v45 val_main_v44 val_main_v43 val_main_v42 val_main_v41 val_main_call0_v0 val_main_call0_cst
  rw [← h40, ← h3, ← h4]
  after_results_simp <;> (try simp only [TRef.ofBuf, TRef.toBuf, cast_eq]) <;> rfl

/-- They write none of the endpoints, deg^(-1/2) and the last argument. -/
theorem hidden_kept :
    after (((ops (F := Ideal)).drop 50).take 7) X (Proc.devRef .tc main_v3) = X (Proc.devRef .tc main_v3)
    ∧ after (((ops (F := Ideal)).drop 50).take 7) X (Proc.devRef .tc main_v6) = X (Proc.devRef .tc main_v6)
    ∧ after (((ops (F := Ideal)).drop 50).take 7) X (Proc.devRef .tc main_v11) = X (Proc.devRef .tc main_v11)
    ∧ after (((ops (F := Ideal)).drop 50).take 7) X (Proc.devRef .tc main_arg5) = X (Proc.devRef .tc main_arg5) := by
  simp only [ops, List.drop_succ_cons, List.drop_zero, List.take_succ_cons, List.take_zero]
  refine ⟨?_, ?_, ?_, ?_⟩ <;> after_results_simp

set_option maxHeartbeats 4000000 in
/-- The 19 operations after the hidden layer compute each edge's weight again. -/
theorem stage_weights_again (x1 : (⟨S2x1600000, .i32⟩ : BufTy).Contents (Elt Ideal))
    (h3 : X (Proc.devRef .tc main_v3) = val_main_v3 (F := Ideal) x1)
    (h6 : X (Proc.devRef .tc main_v6) = val_main_v6 (F := Ideal) x1)
    (h11 : X (Proc.devRef .tc main_v11) = val_main_v11 (F := Ideal) x1) :
    after (((ops (F := Ideal)).drop 57).take 19) X (Proc.devRef .tc main_v60) = val_main_v60 (F := Ideal) x1 := by
  simp only [ops, List.drop_succ_cons, List.drop_zero, List.take_succ_cons, List.take_zero]
  unfold val_main_v60 val_main_v59 val_main_v58 val_main_v57 val_main_v56 val_main_v55 val_main_c_10 val_main_v54 val_main_v53
    val_main_c_9 val_main_v52 val_main_v51 val_main_v50 val_main_v49 val_main_v48 val_main_c_8 val_main_v47 val_main_v46 val_main_c_7
  rw [← h3, ← h6, ← h11]
  after_results_simp <;> (try simp only [TRef.ofBuf, TRef.toBuf, cast_eq]) <;> rfl

/-- They write none of the endpoints, the hidden layer's projection and the last argument. -/
theorem weights_again_kept :
    after (((ops (F := Ideal)).drop 57).take 19) X (Proc.devRef .tc main_v3) = X (Proc.devRef .tc main_v3)
    ∧ after (((ops (F := Ideal)).drop 57).take 19) X (Proc.devRef .tc main_v6) = X (Proc.devRef .tc main_v6)
    ∧ after (((ops (F := Ideal)).drop 57).take 19) X (Proc.devRef .tc main_v45) = X (Proc.devRef .tc main_v45)
    ∧ after (((ops (F := Ideal)).drop 57).take 19) X (Proc.devRef .tc main_arg5) = X (Proc.devRef .tc main_arg5) := by
  simp only [ops, List.drop_succ_cons, List.drop_zero, List.take_succ_cons, List.take_zero]
  refine ⟨?_, ?_, ?_, ?_⟩ <;> after_results_simp

set_option maxHeartbeats 4000000 in
/-- The next 16 operations leave the second aggregation, of the hidden layer's projection. -/
theorem stage_aggregated_again (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal))
    (h3 : X (Proc.devRef .tc main_v3) = val_main_v3 (F := Ideal) x1)
    (h6 : X (Proc.devRef .tc main_v6) = val_main_v6 (F := Ideal) x1)
    (h45 : X (Proc.devRef .tc main_v45) = val_main_v45 (F := Ideal) x0 x1 x2 x3 x4)
    (h60 : X (Proc.devRef .tc main_v60) = val_main_v60 (F := Ideal) x1) :
    after (((ops (F := Ideal)).drop 76).take 16) X (Proc.devRef .tc main_v73) = val_main_v73 (F := Ideal) x0 x1 x2 x3 x4 := by
  simp only [ops, List.drop_succ_cons, List.drop_zero, List.take_succ_cons, List.take_zero]
  unfold val_main_v73 val_main_v72 val_main_v71 val_main_cst_13 val_main_v70 val_main_v69 val_main_v68 val_main_v67 val_main_v66
    val_main_v65 val_main_v64 val_main_v63 val_main_c_12 val_main_v62 val_main_v61 val_main_c_11
  rw [← h3, ← h6, ← h45, ← h60]
  after_results_simp <;> (try simp only [TRef.ofBuf, TRef.toBuf, cast_eq]) <;> rfl

/-- They do not write the last argument. -/
theorem aggregated_again_kept :
    after (((ops (F := Ideal)).drop 76).take 16) X (Proc.devRef .tc main_arg5) = X (Proc.devRef .tc main_arg5) := by
  simp only [ops, List.drop_succ_cons, List.drop_zero, List.take_succ_cons, List.take_zero]
  after_results_simp

set_option maxHeartbeats 4000000 in
/-- The next 3 operations add the second bias, one row broadcast over all rows. -/
theorem stage_biased (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h73 : X (Proc.devRef .tc main_v73) = val_main_v73 (F := Ideal) x0 x1 x2 x3 x4)
    (h5 : X (Proc.devRef .tc main_arg5) = x5) :
    after (((ops (F := Ideal)).drop 92).take 3) X (Proc.devRef .tc main_v76) = val_main_v76 (F := Ideal) x0 x1 x2 x3 x4 x5 := by
  simp only [ops, List.drop_succ_cons, List.drop_zero, List.take_succ_cons, List.take_zero]
  unfold val_main_v76 val_main_v75 val_main_v74
  rw [← h73, ← h5]
  after_results_simp <;> (try simp only [TRef.ofBuf, TRef.toBuf, cast_eq]) <;> rfl

set_option maxHeartbeats 4000000 in
/-- The next 2 operations take each row's maximum, … -/
theorem stage_row_max (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h76 : X (Proc.devRef .tc main_v76) = val_main_v76 (F := Ideal) x0 x1 x2 x3 x4 x5) :
    after (((ops (F := Ideal)).drop 95).take 2) X (Proc.devRef .tc main_call1_v0) = val_main_call1_v0 (F := Ideal) x0 x1 x2 x3 x4 x5 := by
  simp only [ops, List.drop_succ_cons, List.drop_zero, List.take_succ_cons, List.take_zero]
  unfold val_main_call1_v0 val_main_call1_cst
  rw [← h76]
  after_results_simp <;> (try simp only [TRef.ofBuf, TRef.toBuf, cast_eq]) <;> rfl

/-- They do not write the biased array. -/
theorem row_max_kept :
    after (((ops (F := Ideal)).drop 95).take 2) X (Proc.devRef .tc main_v76) = X (Proc.devRef .tc main_v76) := by
  simp only [ops, List.drop_succ_cons, List.drop_zero, List.take_succ_cons, List.take_zero]
  after_results_simp

set_option maxHeartbeats 4000000 in
/-- … and the next 6 subtract it from the row. -/
theorem stage_shifted (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h76 : X (Proc.devRef .tc main_v76) = val_main_v76 (F := Ideal) x0 x1 x2 x3 x4 x5)
    (h0 : X (Proc.devRef .tc main_call1_v0) = val_main_call1_v0 (F := Ideal) x0 x1 x2 x3 x4 x5) :
    after (((ops (F := Ideal)).drop 97).take 6) X (Proc.devRef .tc main_call1_v5) = val_main_call1_v5 (F := Ideal) x0 x1 x2 x3 x4 x5 := by
  simp only [ops, List.drop_succ_cons, List.drop_zero, List.take_succ_cons, List.take_zero]
  unfold val_main_call1_v5 val_main_call1_v4 val_main_call1_v3 val_main_call1_v2 val_main_call1_v1 val_main_call1_cst_0
  rw [← h76, ← h0]
  after_results_simp <;> (try simp only [TRef.ofBuf, TRef.toBuf, cast_eq]) <;> rfl

set_option maxHeartbeats 4000000 in
/-- The last 7 operations subtract from each shifted row the logarithm of the sum of its exponentials. -/
theorem stage_log_softmax (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h5 : X (Proc.devRef .tc main_call1_v5) = val_main_call1_v5 (F := Ideal) x0 x1 x2 x3 x4 x5) :
    after ((ops (F := Ideal)).drop 103) X (Proc.devRef .tc main_v77) = val_main_v77 (F := Ideal) x0 x1 x2 x3 x4 x5 := by
  simp only [ops, List.drop_succ_cons, List.drop_zero]
  unfold val_main_v77 val_main_call1_v10 val_main_call1_v9 val_main_call1_v8 val_main_call1_v7 val_main_call1_cst_1 val_main_call1_v6
  rw [← h5]
  after_results_simp <;> (try simp only [TRef.ofBuf, TRef.toBuf, cast_eq]) <;> rfl

/-! ## The stretches in a row -/

section Chain

variable (W : Valuation τ sig (Elt Ideal))

/-- The contents after the first 7 operations, … -/
def withEndpoints : Valuation τ sig (Elt Ideal) := after ((ops (F := Ideal)).take 7) W
/-- … after the first 34, … -/
def withWeights : Valuation τ sig (Elt Ideal) := after (((ops (F := Ideal)).drop 7).take 27) (withEndpoints W)
/-- … after the first 50, … -/
def withAggregate : Valuation τ sig (Elt Ideal) := after (((ops (F := Ideal)).drop 34).take 16) (withWeights W)
/-- … after the first 57, … -/
def withHidden : Valuation τ sig (Elt Ideal) := after (((ops (F := Ideal)).drop 50).take 7) (withAggregate W)
/-- … after the first 76, … -/
def withWeightsAgain : Valuation τ sig (Elt Ideal) := after (((ops (F := Ideal)).drop 57).take 19) (withHidden W)
/-- … after the first 92, … -/
def withAggregateAgain : Valuation τ sig (Elt Ideal) := after (((ops (F := Ideal)).drop 76).take 16) (withWeightsAgain W)
/-- … after the first 95, … -/
def withBias : Valuation τ sig (Elt Ideal) := after (((ops (F := Ideal)).drop 92).take 3) (withAggregateAgain W)
/-- … after the first 97, … -/
def withRowMax : Valuation τ sig (Elt Ideal) := after (((ops (F := Ideal)).drop 95).take 2) (withBias W)
/-- … and after the first 103. -/
def withShifted : Valuation τ sig (Elt Ideal) := after (((ops (F := Ideal)).drop 97).take 6) (withRowMax W)

/-- All of @main's operations are the last 7 run from there. -/
theorem after_ops_split : after (ops (F := Ideal)) W = after ((ops (F := Ideal)).drop 103) (withShifted W) :=
  (after_take_drop 7 ops W).trans <|
  (after_drop_take 7 27 34 rfl ops _).trans <|
  (after_drop_take 34 16 50 rfl ops _).trans <|
  (after_drop_take 50 7 57 rfl ops _).trans <|
  (after_drop_take 57 19 76 rfl ops _).trans <|
  (after_drop_take 76 16 92 rfl ops _).trans <|
  (after_drop_take 92 3 95 rfl ops _).trans <|
  (after_drop_take 95 2 97 rfl ops _).trans <|
  after_drop_take 97 6 103 rfl ops _

/-- What the later stretches read there: the endpoints, and the arguments as launched. -/
theorem withEndpoints_holds :
    withEndpoints W (Proc.devRef .tc main_v3) = val_main_v3 (F := Ideal) (W (Proc.devRef .tc main_arg1))
    ∧ withEndpoints W (Proc.devRef .tc main_v6) = val_main_v6 (F := Ideal) (W (Proc.devRef .tc main_arg1))
    ∧ withEndpoints W (Proc.devRef .tc main_arg0) = W (Proc.devRef .tc main_arg0)
    ∧ withEndpoints W (Proc.devRef .tc main_arg2) = W (Proc.devRef .tc main_arg2)
    ∧ withEndpoints W (Proc.devRef .tc main_arg3) = W (Proc.devRef .tc main_arg3)
    ∧ withEndpoints W (Proc.devRef .tc main_arg4) = W (Proc.devRef .tc main_arg4)
    ∧ withEndpoints W (Proc.devRef .tc main_arg5) = W (Proc.devRef .tc main_arg5) :=
  ⟨stage_sources W _ rfl, stage_destinations W _ rfl, endpoints_kept W⟩

/-- What the later stretches read there. -/
theorem withWeights_holds :
    withWeights W (Proc.devRef .tc main_v11) = val_main_v11 (F := Ideal) (W (Proc.devRef .tc main_arg1))
    ∧ withWeights W (Proc.devRef .tc main_v12) = val_main_v12 (F := Ideal) (W (Proc.devRef .tc main_arg0)) (W (Proc.devRef .tc main_arg2))
    ∧ withWeights W (Proc.devRef .tc main_v27) = val_main_v27 (F := Ideal) (W (Proc.devRef .tc main_arg1))
    ∧ withWeights W (Proc.devRef .tc main_v3) = val_main_v3 (F := Ideal) (W (Proc.devRef .tc main_arg1))
    ∧ withWeights W (Proc.devRef .tc main_v6) = val_main_v6 (F := Ideal) (W (Proc.devRef .tc main_arg1))
    ∧ withWeights W (Proc.devRef .tc main_arg3) = W (Proc.devRef .tc main_arg3)
    ∧ withWeights W (Proc.devRef .tc main_arg4) = W (Proc.devRef .tc main_arg4)
    ∧ withWeights W (Proc.devRef .tc main_arg5) = W (Proc.devRef .tc main_arg5) := by
  obtain ⟨e3, e6, e0, e2, e_3, e_4, e_5⟩ := withEndpoints_holds W
  obtain ⟨k3, k6, k_3, k_4, k_5⟩ := weights_kept (withEndpoints W)
  exact ⟨stage_degree _ _ e6, stage_projected _ _ _ e0 e2, stage_weights _ _ e3 e6, k3.trans e3, k6.trans e6,
    k_3.trans e_3, k_4.trans e_4, k_5.trans e_5⟩

/-- What the later stretches read there. -/
theorem withAggregate_holds :
    withAggregate W (Proc.devRef .tc main_v40) = val_main_v40 (F := Ideal) (W (Proc.devRef .tc main_arg0)) (W (Proc.devRef .tc main_arg1)) (W (Proc.devRef .tc main_arg2))
    ∧ withAggregate W (Proc.devRef .tc main_v3) = val_main_v3 (F := Ideal) (W (Proc.devRef .tc main_arg1))
    ∧ withAggregate W (Proc.devRef .tc main_v6) = val_main_v6 (F := Ideal) (W (Proc.devRef .tc main_arg1))
    ∧ withAggregate W (Proc.devRef .tc main_v11) = val_main_v11 (F := Ideal) (W (Proc.devRef .tc main_arg1))
    ∧ withAggregate W (Proc.devRef .tc main_arg3) = W (Proc.devRef .tc main_arg3)
    ∧ withAggregate W (Proc.devRef .tc main_arg4) = W (Proc.devRef .tc main_arg4)
    ∧ withAggregate W (Proc.devRef .tc main_arg5) = W (Proc.devRef .tc main_arg5) := by
  obtain ⟨e11, e12, e27, e3, e6, e_3, e_4, e_5⟩ := withWeights_holds W
  obtain ⟨k3, k6, k11, k_3, k_4, k_5⟩ := aggregated_kept (withWeights W)
  exact ⟨stage_aggregated _ _ _ _ e3 e6 e12 e27, k3.trans e3, k6.trans e6, k11.trans e11,
    k_3.trans e_3, k_4.trans e_4, k_5.trans e_5⟩

/-- What the later stretches read there. -/
theorem withHidden_holds :
    withHidden W (Proc.devRef .tc main_v45) = val_main_v45 (F := Ideal) (W (Proc.devRef .tc main_arg0)) (W (Proc.devRef .tc main_arg1)) (W (Proc.devRef .tc main_arg2)) (W (Proc.devRef .tc main_arg3)) (W (Proc.devRef .tc main_arg4))
    ∧ withHidden W (Proc.devRef .tc main_v3) = val_main_v3 (F := Ideal) (W (Proc.devRef .tc main_arg1))
    ∧ withHidden W (Proc.devRef .tc main_v6) = val_main_v6 (F := Ideal) (W (Proc.devRef .tc main_arg1))
    ∧ withHidden W (Proc.devRef .tc main_v11) = val_main_v11 (F := Ideal) (W (Proc.devRef .tc main_arg1))
    ∧ withHidden W (Proc.devRef .tc main_arg5) = W (Proc.devRef .tc main_arg5) := by
  obtain ⟨e40, e3, e6, e11, e_3, e_4, e_5⟩ := withAggregate_holds W
  obtain ⟨k3, k6, k11, k_5⟩ := hidden_kept (withAggregate W)
  exact ⟨stage_hidden _ _ _ _ _ _ e40 e_3 e_4, k3.trans e3, k6.trans e6, k11.trans e11, k_5.trans e_5⟩

/-- What the later stretches read there. -/
theorem withWeightsAgain_holds :
    withWeightsAgain W (Proc.devRef .tc main_v60) = val_main_v60 (F := Ideal) (W (Proc.devRef .tc main_arg1))
    ∧ withWeightsAgain W (Proc.devRef .tc main_v3) = val_main_v3 (F := Ideal) (W (Proc.devRef .tc main_arg1))
    ∧ withWeightsAgain W (Proc.devRef .tc main_v6) = val_main_v6 (F := Ideal) (W (Proc.devRef .tc main_arg1))
    ∧ withWeightsAgain W (Proc.devRef .tc main_v45) = val_main_v45 (F := Ideal) (W (Proc.devRef .tc main_arg0)) (W (Proc.devRef .tc main_arg1)) (W (Proc.devRef .tc main_arg2)) (W (Proc.devRef .tc main_arg3)) (W (Proc.devRef .tc main_arg4))
    ∧ withWeightsAgain W (Proc.devRef .tc main_arg5) = W (Proc.devRef .tc main_arg5) := by
  obtain ⟨e45, e3, e6, e11, e_5⟩ := withHidden_holds W
  obtain ⟨k3, k6, k45, k_5⟩ := weights_again_kept (withHidden W)
  exact ⟨stage_weights_again _ _ e3 e6 e11, k3.trans e3, k6.trans e6, k45.trans e45, k_5.trans e_5⟩

/-- What the later stretches read there. -/
theorem withAggregateAgain_holds :
    withAggregateAgain W (Proc.devRef .tc main_v73) = val_main_v73 (F := Ideal) (W (Proc.devRef .tc main_arg0)) (W (Proc.devRef .tc main_arg1)) (W (Proc.devRef .tc main_arg2)) (W (Proc.devRef .tc main_arg3)) (W (Proc.devRef .tc main_arg4))
    ∧ withAggregateAgain W (Proc.devRef .tc main_arg5) = W (Proc.devRef .tc main_arg5) := by
  obtain ⟨e60, e3, e6, e45, e_5⟩ := withWeightsAgain_holds W
  exact ⟨stage_aggregated_again _ _ _ _ _ _ e3 e6 e45 e60, (aggregated_again_kept (withWeightsAgain W)).trans e_5⟩

/-- What the next stretch reads there. -/
theorem withBias_holds :
    withBias W (Proc.devRef .tc main_v76) = val_main_v76 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  obtain ⟨e73, e_5⟩ := withAggregateAgain_holds W
  exact stage_biased _ _ _ _ _ _ _ e73 e_5

/-- What the next stretch reads there. -/
theorem withRowMax_holds :
    withRowMax W (Proc.devRef .tc main_call1_v0) = val_main_call1_v0 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5))
    ∧ withRowMax W (Proc.devRef .tc main_v76) = val_main_v76 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  ⟨stage_row_max _ _ _ _ _ _ _ (withBias_holds W), (row_max_kept (withBias W)).trans (withBias_holds W)⟩

/-- What the last stretch reads there. -/
theorem withShifted_holds :
    withShifted W (Proc.devRef .tc main_call1_v5) = val_main_call1_v5 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  obtain ⟨e0, e76⟩ := withRowMax_holds W
  exact stage_shifted _ _ _ _ _ _ _ e76 e0

set_option maxHeartbeats 4000000 in
/-- No operation writes an argument. -/
theorem arguments_kept :
    after (ops (F := Ideal)) W (Proc.devRef .tc main_arg0) = W (Proc.devRef .tc main_arg0)
    ∧ after (ops (F := Ideal)) W (Proc.devRef .tc main_arg1) = W (Proc.devRef .tc main_arg1)
    ∧ after (ops (F := Ideal)) W (Proc.devRef .tc main_arg2) = W (Proc.devRef .tc main_arg2)
    ∧ after (ops (F := Ideal)) W (Proc.devRef .tc main_arg3) = W (Proc.devRef .tc main_arg3)
    ∧ after (ops (F := Ideal)) W (Proc.devRef .tc main_arg4) = W (Proc.devRef .tc main_arg4)
    ∧ after (ops (F := Ideal)) W (Proc.devRef .tc main_arg5) = W (Proc.devRef .tc main_arg5) := by
  simp only [ops]
  refine ⟨?_, ?_, ?_, ?_, ?_, ?_⟩ <;> after_results_simp

end Chain

/-- After all of @main's operations, from any contents `W`, the result buffer holds the last stage of the six arguments. -/
theorem result_eq (W : Valuation τ sig (Elt Ideal)) :
    after (ops (F := Ideal)) W (Proc.devRef .tc main_v77)
      = val_main_v77 (F := Ideal) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  exact (congrFun (after_ops_split W) _).trans (stage_log_softmax (withShifted W) _ _ _ _ _ _ (withShifted_holds W))

/-- Every weakly fair execution of the reference terminates with its result at the last stage of the arguments it was
    launched with, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77)
        = val_main_v77 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ?_)
    (run_seq scopedRefs_eq scopedSems_eq (defs (F := Ideal)) (main (F := Ideal)) (fun _ => ops (F := Ideal)) main_eq
      (fun _ => ops_sub) m ρ)
  obtain ⟨k0, k1, k2, k3, k4, k5⟩ := arguments_kept (launchContents m c)
  exact ⟨(h c main_v77).trans (result_eq (launchContents m c)), (h c main_arg0).trans k0, (h c main_arg1).trans k1,
    (h c main_arg2).trans k2, (h c main_arg3).trans k3, (h c main_arg4).trans k4, (h c main_arg5).trans k5⟩

end Cert.ReferenceRun

end
-- ==== Proof.FirstBridge.lean ====
import proofs.«128818_j360777253171_1_alg».proof.Proof.RefRead
import proofs.«128818_j360777253171_1_alg».proof.Proof.FirstProjection
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.FirstBridge

open Idealize.ShloMosaic Idealize.ShloMosaic.TcCoe Idealize.SL.Sem Idealize.ShloMosaic.ValueIdx
open Cert.KernelIdeal
open Cert.ReferenceIdeal.ReadP

/-- The reference's first projection, jnp's x @ W1, is the product the first region leaves, entry by entry. -/
theorem reference_product (x0 : (⟨S100000x128, .f32⟩ : BufTy).Contents (Elt Ideal)) (x2 : (⟨S128x128, .f32⟩ : BufTy).Contents (Elt Ideal)) :
    val_main_v12 (F := Ideal) x0 x2 = Cert.FirstProjection.rowsTimes x0 x2 := by
  funext i
  rw [val_main_v12_apply]
  unfold Cert.FirstProjection.rowsTimes
  refine Finset.sum_congr rfl fun k _ => ?_
  have el : lidx_main_v12 i k = ix2 (⟨(i 0).val, (i 0).isLt⟩ : Fin 100000) k :=
    funext fun a => Fin.ext (by match a with | ⟨0, _⟩ => rfl | ⟨1, _⟩ => rfl)
  have er : ridx_main_v12 i k = ix2 k (⟨(i 1).val, (i 1).isLt⟩ : Fin 128) :=
    funext fun a => Fin.ext (by match a with | ⟨0, _⟩ => rfl | ⟨1, _⟩ => rfl)
  rw [el, er]

end Cert.FirstBridge

end
-- ==== Proof.HiddenBridge.lean ====
import proofs.«128818_j360777253171_1_alg».proof.Proof.RefRead
import proofs.«128818_j360777253171_1_alg».proof.Proof.HiddenProjection
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.HiddenBridge

open Idealize.ShloMosaic Idealize.ShloMosaic.TcCoe Idealize.SL.Sem Idealize.ShloMosaic.ValueIdx
open Cert.KernelIdeal Cert.KernelIdeal.Gen
open Cert.ReferenceIdeal.ReadP

/-- The left operand of the reference's product is read at the output's row and the contraction index. -/
theorem lidx_eq (i : S100000x64.Idx) (k : Fin 128) :
    lidx_main_v45 i k = ix2 (⟨(i 0).val, (i 0).isLt⟩ : Fin 100000) k :=
  funext fun a => Fin.ext (by match a with | ⟨0, _⟩ => rfl | ⟨1, _⟩ => rfl)

/-- The right operand is read at the contraction index and the output's column. -/
theorem ridx_eq (i : S100000x64.Idx) (k : Fin 128) :
    ridx_main_v45 i k = ix2 k (⟨(i 1).val, (i 1).isLt⟩ : Fin 64) :=
  funext fun a => Fin.ext (by match a with | ⟨0, _⟩ => rfl | ⟨1, _⟩ => rfl)

/-- The bias broadcast over the rows is read, at column k of any row, at entry k of the bias. -/
theorem bias_idx_eq (r : Fin 100000) (k : Fin 128) :
    idx_main_v41 (idx_main_v42 (ix2 r k)) = ix1 k :=
  funext fun a => Fin.ext (by match a with | ⟨0, _⟩ => rfl)

/-- The reference's second projection, relu(agg + b1) @ W2 with agg its first aggregation, is what the second region
    leaves when it is entered with that aggregation, the bias as a single row, and W2. -/
theorem reference_hidden (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x64, .f32⟩ : BufTy).Contents (Elt Ideal)) :
    val_main_v45 (F := Ideal) x0 x1 x2 x3 x4
      = Cert.HiddenProjection.reluTimes (val_main_v40 (F := Ideal) x0 x1 x2) (shapeCast S1x128 x3 shapeCasts_S128_S1x128) x4 := by
  funext i
  rw [val_main_v45_apply]
  unfold Cert.HiddenProjection.reluTimes
  refine Finset.sum_congr rfl fun k _ => ?_
  rw [val_main_v44_apply, val_main_v43_apply, val_main_v42_apply, val_main_v41_apply, val_main_call0_v0_apply,
    val_main_call0_cst_apply, lidx_eq, ridx_eq, bias_idx_eq, shapeCast_a_1a_apply]
  rfl

end Cert.HiddenBridge

end
-- ==== Proof.SoftmaxBridge.lean ====
import proofs.«128818_j360777253171_1_alg».proof.Proof.RefRead
import proofs.«128818_j360777253171_1_alg».proof.Proof.RowLogSoftmax
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.SoftmaxBridge

open Idealize.ShloMosaic Idealize.ShloMosaic.TcCoe Idealize.SL.Sem Idealize.ShloMosaic.ValueIdx
open Cert.KernelIdeal Cert.KernelIdeal.Gen
open Cert.ReferenceIdeal.ReadP

open Cert.RowLogSoftmax (biased rowMax logSoftmaxRows logSoftmaxRows_apply)

/-! ## The host's row maximum -/

/-- Under the reduction of axis 1, the source index over row `r` with column `k` inserted is `(r, k)`. -/
theorem lift_row (h : S100000x64.Reduces [1] S100000) (r : Fin 100000) (k : Fin 64) :
    h.lift (ix1 r) k = ix2 r k :=
  funext fun a => Fin.ext (by match a with | ⟨0, _⟩ => rfl | ⟨1, _⟩ => rfl)

/-- From −∞ the host's reduce with a maximum body over axis 1, at row `r`, is the largest entry of that row. -/
theorem hostRowMax_apply (x : FVec Ideal S100000x64 .f32) (h' : S100000x64.ReducesTo [1] S100000)
    (hu : 0 < S_.numel) (r : Fin 100000) :
    Host.reduce FloatOps.maximumf x (constant (F := Ideal) S_ .f32 0xFF800000#32) h' hu (ix1 r)
      = rowMax (fun k => x (ix2 r k)) := by
  have h : S100000x64.Reduces [1] S100000 := by decide
  rw [Host.reduce_eq_fold_single FloatOps.maximumf x _ h' h hu]
  have hf : (x ∘ h.lift (ix1 r)) = fun k : Fin 64 => x (ix2 r k) := funext fun k => congrArg x (lift_row h r k)
  exact congrArg (fun f => Finset.fold max (Ideal.ofBits .f32 0xFF800000#32) f (Finset.univ : Finset (Fin 64))) hf

/-- The larger of −∞ and `y` is `y`. -/
theorem max_negInf (y : EReal) : max (Ideal.ofBits .f32 0xFF800000#32) y = y := by
  simp [Ideal.ofBits, Ideal.ieee]

/-! ## The reference's stages at an index -/

section Stages

variable (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x64, .f32⟩ : BufTy).Contents (Elt Ideal))
    (x5 : (⟨S64, .f32⟩ : BufTy).Contents (Elt Ideal))

/-- The reference's biased aggregation at `(r, k)`: the aggregation plus the bias, the bias read as the one row the
    reshape of it holds. -/
theorem biasedAggregation_apply (r : Fin 100000) (k : Fin 64) :
    val_main_v76 (F := Ideal) x0 x1 x2 x3 x4 x5 (ix2 r k)
      = biased (val_main_v73 (F := Ideal) x0 x1 x2 x3 x4) (shapeCast S1x64 x5 shapeCasts_S64_S1x64) r k := by
  rw [val_main_v76_apply, val_main_v75_apply, val_main_v74_apply]
  have e : idx_main_v74 (idx_main_v75 (ix2 r k)) = ix1 k :=
    funext fun a => Fin.ext (by match a with | ⟨0, _⟩ => rfl)
  rw [e]
  show _ + _ = val_main_v73 (F := Ideal) x0 x1 x2 x3 x4 (ix2 r k) + shapeCast S1x64 x5 shapeCasts_S64_S1x64 (ix2 (0 : Fin 1) k)
  rw [shapeCast_a_1a_apply]

/-- The reference's row maximum spread over the row, at `(r, q)`: the largest entry of row `r` of the biased aggregation. -/
theorem rowMaxSpread_apply (r : Fin 100000) (q : Fin 64) :
    val_main_call1_v4 (F := Ideal) x0 x1 x2 x3 x4 x5 (ix2 r q)
      = rowMax (biased (val_main_v73 (F := Ideal) x0 x1 x2 x3 x4) (shapeCast S1x64 x5 shapeCasts_S64_S1x64) r) := by
  rw [val_main_call1_v4_apply, val_main_call1_v3_apply, val_main_call1_v2_apply, val_main_call1_v1_apply,
    val_main_call1_cst_0_apply]
  have e : idx_main_call1_v3 (idx_main_call1_v4 (ix2 r q)) = ix1 r :=
    funext fun a => Fin.ext (by match a with | ⟨0, _⟩ => rfl)
  rw [e]
  unfold val_main_call1_v0 val_main_call1_cst
  rw [hostRowMax_apply]
  refine (max_negInf _).trans (congrArg rowMax (funext fun k => ?_))
  exact biasedAggregation_apply x0 x1 x2 x3 x4 x5 r k

/-- The reference's centred entry at `(r, k)`: the biased aggregation less its row's largest entry. -/
theorem centred_apply (r : Fin 100000) (k : Fin 64) :
    val_main_call1_v5 (F := Ideal) x0 x1 x2 x3 x4 x5 (ix2 r k)
      = biased (val_main_v73 (F := Ideal) x0 x1 x2 x3 x4) (shapeCast S1x64 x5 shapeCasts_S64_S1x64) r k
        - rowMax (biased (val_main_v73 (F := Ideal) x0 x1 x2 x3 x4) (shapeCast S1x64 x5 shapeCasts_S64_S1x64) r) := by
  rw [val_main_call1_v5_apply, biasedAggregation_apply, rowMaxSpread_apply]
  rfl

/-- The reference's logarithm of the row sum spread over the row, at `(r, q)`. -/
theorem logRowSumSpread_apply (r : Fin 100000) (q : Fin 64) :
    val_main_call1_v10 (F := Ideal) x0 x1 x2 x3 x4 x5 (ix2 r q)
      = Ideal.log (∑ k : Fin 64, Ideal.exp
          (biased (val_main_v73 (F := Ideal) x0 x1 x2 x3 x4) (shapeCast S1x64 x5 shapeCasts_S64_S1x64) r k
            - rowMax (biased (val_main_v73 (F := Ideal) x0 x1 x2 x3 x4) (shapeCast S1x64 x5 shapeCasts_S64_S1x64) r))) := by
  rw [val_main_call1_v10_apply, val_main_call1_v9_apply, val_main_call1_v8_apply, val_main_call1_v7_apply,
    val_main_call1_cst_1_apply]
  have e : idx_main_call1_v8 (idx_main_call1_v10 (ix2 r q)) = ix1 r :=
    funext fun a => Fin.ext (by match a with | ⟨0, _⟩ => rfl)
  rw [e, Ideal.ofBits_def, Ideal.ofBits_zero_f32, zero_add, Ideal.hostUnary_log_def]
  refine congrArg Ideal.log (Finset.sum_congr rfl fun k _ => ?_)
  have ek : idx_main_call1_v7 (ix1 r) k = ix2 r k :=
    funext fun a => Fin.ext (by match a with | ⟨0, _⟩ => rfl | ⟨1, _⟩ => rfl)
  rw [ek, val_main_call1_v6_apply, Ideal.hostUnary_exp_def, centred_apply]

end Stages
/-- The reference's result, log_softmax(agg + b2) along the rows with agg its second aggregation, is what the third
    region leaves when it is entered with that aggregation and the bias as a single row. -/
theorem reference_logSoftmax (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x64, .f32⟩ : BufTy).Contents (Elt Ideal))
    (x5 : (⟨S64, .f32⟩ : BufTy).Contents (Elt Ideal)) :
    val_main_v77 (F := Ideal) x0 x1 x2 x3 x4 x5
      = Cert.RowLogSoftmax.logSoftmaxRows (val_main_v73 (F := Ideal) x0 x1 x2 x3 x4) (shapeCast S1x64 x5 shapeCasts_S64_S1x64) := by
  funext i
  obtain ⟨r, q, rfl⟩ : ∃ (r : Fin 100000) (q : Fin 64), i = ix2 r q := ⟨i 0, i 1, eq_ix2 i⟩
  rw [val_main_v77_apply, centred_apply, logRowSumSpread_apply, logSoftmaxRows_apply _ _ (ix2 r q) r q rfl rfl]
  rfl

end Cert.SoftmaxBridge

end
-- ==== Proof.ReferenceNetwork.lean ====
import proofs.«128818_j360777253171_1_alg».proof.Proof.RefRead
import proofs.«128818_j360777253171_1_alg».proof.Proof.Network
import proofs.«128818_j360777253171_1_alg».proof.Proof.FirstBridge
import proofs.«128818_j360777253171_1_alg».proof.Proof.HiddenBridge
import proofs.«128818_j360777253171_1_alg».proof.Proof.SoftmaxBridge

set_option maxRecDepth 16384

noncomputable section

namespace Cert.ReferenceNetwork

open Idealize.ShloMosaic Idealize.ShloMosaic.TcCoe Idealize.SL.Sem
open Cert.KernelIdeal Cert.KernelIdeal.Gen Cert.HostChains Cert.Network
open Cert.ReferenceIdeal.ReadP

/-! ## The reference's host stages are the shared host chains -/

section Stages

variable (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x64, .f32⟩ : BufTy).Contents (Elt Ideal))

/-- The reference's source list: row 0 of the edge list, then one self loop per node. -/
theorem sources_eq : val_main_v3 (F := Ideal) x1 = sources x1 := rfl

/-- The reference's destination list: row 1 of the edge list, then one self loop per node. -/
theorem destinations_eq : val_main_v6 (F := Ideal) x1 = destinations x1 := rfl

/-- The reference's deg^(-1/2) is that of its destination list. -/
theorem degInvSqrt_eq : val_main_v11 (F := Ideal) x1 = degInvSqrt (val_main_v6 (F := Ideal) x1) := rfl

/-- The reference's edge weights, as computed for the first layer. -/
theorem edgeWeight_eq :
    val_main_v27 (F := Ideal) x1 = edgeWeight (val_main_v3 (F := Ideal) x1) (val_main_v6 (F := Ideal) x1) := rfl

/-- The reference's edge weights, as computed again for the second layer. -/
theorem edgeWeight_again_eq :
    val_main_v60 (F := Ideal) x1 = edgeWeight (val_main_v3 (F := Ideal) x1) (val_main_v6 (F := Ideal) x1) := rfl

/-- The reference's first aggregation, of its first product over its edges. -/
theorem aggregate128_eq :
    val_main_v40 (F := Ideal) x0 x1 x2
      = aggregate128 (val_main_v12 (F := Ideal) x0 x2) (val_main_v3 (F := Ideal) x1) (val_main_v6 (F := Ideal) x1)
          (val_main_v27 (F := Ideal) x1) := rfl

/-- The reference's second aggregation, of its hidden product over its edges. -/
theorem aggregate64_eq :
    val_main_v73 (F := Ideal) x0 x1 x2 x3 x4
      = aggregate64 (val_main_v45 (F := Ideal) x0 x1 x2 x3 x4) (val_main_v3 (F := Ideal) x1) (val_main_v6 (F := Ideal) x1)
          (val_main_v60 (F := Ideal) x1) := rfl

end Stages
/-- The reference's result, as a function of its six arguments, is the network's output. -/
theorem reference_network (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x64, .f32⟩ : BufTy).Contents (Elt Ideal))
    (x5 : (⟨S64, .f32⟩ : BufTy).Contents (Elt Ideal)) :
    val_main_v77 (F := Ideal) x0 x1 x2 x3 x4 x5 = network x0 x1 x2 x3 x4 x5 := by
  rw [Cert.SoftmaxBridge.reference_logSoftmax, aggregate64_eq, Cert.HiddenBridge.reference_hidden, aggregate128_eq,
    Cert.FirstBridge.reference_product, edgeWeight_again_eq, edgeWeight_eq, sources_eq, destinations_eq]
  rfl

end Cert.ReferenceNetwork

end
-- ==== Proof.lean ====
/-
  A two-layer graph convolution with a row-wise log-softmax, three Pallas regions among host operations, against jnp.

  Both programs build the same edge data on the host: each edge's source and destination with one self loop appended per
  node, deg^(-1/2) of every node from a scatter-add of ones over the destinations, and the edge weight
  deg^(-1/2)[src] · deg^(-1/2)[dst]. One aggregation gathers the source rows of a matrix, scales them by the edge weight and
  scatter-adds them into the destination rows. With A that aggregation the network is
      out = log_softmax_rows( A( relu( A(x · W1) + b1 ) · W2 ) + b2 ).
  The kernel program computes x · W1, relu(· + b1) · W2 and log_softmax_rows(· + b2) in three regions, each over twenty
  row blocks of 5000 rows with the weights and the bias row resident, and the aggregations between them on the host; the
  reference computes everything on the host.

  On the extended reals the two agree entry by entry with no law beyond the definitions:
  * a block's matrix product started from a zero accumulator is, at (p, q), the sum over k of the block's [p, k] times the
    weights' [k, q], rounding to bf16 being the identity; row r of the whole product lies in block r / 5000, so the twenty
    blocks written back are the whole product the reference's dot_general states (FirstProjection, HiddenProjection, and
    their reference sides FirstBridge, HiddenBridge);
  * the third region's row maximum and row sum are the folds over the 64 columns the reference's reduces state, the
    reference's extra maximum with −∞ changing nothing (RowLogSoftmax, SoftmaxBridge);
  * the host operations between the regions are the same operations in both programs, carried as functions and never
    opened (HostChains); the reference's recomputed edge weight for the second layer is the same function of the same data.
  Network states the kernel program's result buffer as that one function of the six arguments, boundary by boundary;
  ReferenceRun the reference's run over its stages and ReferenceNetwork that its last stage is the same function.
  Finiteness of the inputs is not used: no step distributes, cancels or moves a factor across a sum.
-/
import proofs.«128818_j360777253171_1_alg».proof.Defs
import proofs.«128818_j360777253171_1_alg».proof.Proof.Gen.Kernel
import proofs.«128818_j360777253171_1_alg».proof.Proof.Gen.Kernel.Skeleton
import proofs.«128818_j360777253171_1_alg».proof.Proof.Gen.Kernel.Launch
import proofs.«128818_j360777253171_1_alg».proof.Proof.Gen.Kernel.Points
import proofs.«128818_j360777253171_1_alg».proof.Proof.Gen.Kernel.Frame
import proofs.«128818_j360777253171_1_alg».proof.Proof.Gen.KernelIdeal
import proofs.«128818_j360777253171_1_alg».proof.Proof.Gen.KernelIdeal.Skeleton
import proofs.«128818_j360777253171_1_alg».proof.Proof.Gen.KernelIdeal.Launch
import proofs.«128818_j360777253171_1_alg».proof.Proof.Gen.KernelIdeal.Points
import proofs.«128818_j360777253171_1_alg».proof.Proof.Gen.KernelIdeal.Frame
import proofs.«128818_j360777253171_1_alg».proof.Proof.Gen.ReferenceIdeal
import proofs.«128818_j360777253171_1_alg».proof.Proof.Gen.Pre_finite_inputs
import proofs.«128818_j360777253171_1_alg».proof.Proof.KernelRun
import proofs.«128818_j360777253171_1_alg».proof.Proof.Network
import proofs.«128818_j360777253171_1_alg».proof.Proof.ReferenceRun
import proofs.«128818_j360777253171_1_alg».proof.Proof.ReferenceNetwork
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceRun.run m ρ)

/-- The ideal pass rewrote nothing. -/
theorem preserves : Cert.preserves_Kernel_KernelIdeal := trivial

/-- From memories that agree on the six arguments both programs end with the network's output of those arguments. -/
theorem algebraic : Cert.algebraic_KernelIdeal_ReferenceIdeal := by
  intro m ρ m' ρ' _ hagree
  refine ⟨fun c => Cert.Network.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Network.result m ρ c), (h c).2⟩)
      (Cert.KernelIdeal.Named.run_named m ρ)
  · refine (θ_run Cert.ReferenceIdeal.defs _ _).mono (fun r h c => ⟨(h c).1.trans ?_, (h c).2⟩)
      (Cert.ReferenceRun.run m' ρ')
    rw [(hagree c).1, (hagree c).2.1, (hagree c).2.2.1, (hagree c).2.2.2.1, (hagree c).2.2.2.2.1, (hagree c).2.2.2.2.2]
    exact Cert.ReferenceNetwork.reference_network _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
